-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x512 : Shape := ⟨3, ![8, 2048, 512]⟩
abbrev S_ : Shape := ⟨0, ![]⟩

class Facts : Prop where
  bcast_S_S8x2048x512 : S_.BroadcastsInDim S8x2048x512 (![] : Fin 0 → Fin S8x2048x512.rank)
  reducesTo_S8x2048x512_S_d0_1_2 : S8x2048x512.ReducesTo [0, 1, 2] S_
  h_S_ : 0 < S_.numel

variable [Facts]

def fn {F : FTy → Type} [FloatOps F] (main_arg0 : FVec F S8x2048x512 .f32) (main_arg1 : FVec F S8x2048x512 .f32) : IVec S_ 1 :=
  let main_v0 : FVec F S8x2048x512 .f32 := Host.absf main_arg0
  let main_cst : FVec F S_ .f32 := constant S_ .f32 0x7F800000#32
  let main_v1 : FVec F S8x2048x512 .f32 := broadcastInDim S8x2048x512 ![] bcast_S_S8x2048x512 main_cst
  let main_v2 : IVec S8x2048x512 1 := cmpf .olt main_v0 main_v1
  let main_c : IVec S_ 1 := constantI S_ 1 1#1
  let main_v3 : IVec S_ 1 := (fun x v => Host.reduce IntOp.andi x v reducesTo_S8x2048x512_S_d0_1_2 h_S_) main_v2 main_c
  let main_v4 : FVec F S8x2048x512 .f32 := Host.absf main_arg1
  let main_cst_0 : FVec F S_ .f32 := constant S_ .f32 0x7F800000#32
  let main_v5 : FVec F S8x2048x512 .f32 := broadcastInDim S8x2048x512 ![] bcast_S_S8x2048x512 main_cst_0
  let main_v6 : IVec S8x2048x512 1 := cmpf .olt main_v4 main_v5
  let main_c_1 : IVec S_ 1 := constantI S_ 1 1#1
  let main_v7 : IVec S_ 1 := (fun x v => Host.reduce IntOp.andi x v reducesTo_S8x2048x512_S_d0_1_2 h_S_) main_v6 main_c_1
  let main_v8 : IVec S_ 1 := andi main_v3 main_v7
  main_v8
-- ==== Kernel.lean ====
abbrev S8x2048x512 : Shape := ⟨3, ![8, 2048, 512]⟩
abbrev S8x2048x1024 : Shape := ⟨3, ![8, 2048, 1024]⟩
abbrev S1x512x512 : Shape := ⟨3, ![1, 512, 512]⟩
abbrev S1x2048x512 : Shape := ⟨3, ![1, 2048, 512]⟩
abbrev S1x512x1024 : Shape := ⟨3, ![1, 512, 1024]⟩
abbrev S512x512 : Shape := ⟨2, ![512, 512]⟩
abbrev S2048x512 : Shape := ⟨2, ![2048, 512]⟩
abbrev S512x2048 : Shape := ⟨2, ![512, 2048]⟩
abbrev S512 : Shape := ⟨1, ![512]⟩
abbrev S512x1 : Shape := ⟨2, ![512, 1]⟩

abbrev nBuf : Space → Nat
  | .hbm => 4
  | .vmem => 6
  | .smem => 0
  | _ => 0

abbrev bufTy : (tb : Table) → Fin (tcTables nBuf tb) → BufTy
  | .hbm, ⟨0, _⟩ => ⟨S8x2048x512, .f32⟩
  | .hbm, ⟨1, _⟩ => ⟨S8x2048x512, .f32⟩
  | .hbm, ⟨2, _⟩ => ⟨S8x2048x512, .bf16⟩
  | .hbm, ⟨3, _⟩ => ⟨S8x2048x1024, .f32⟩
  | .local _ .vmem, ⟨0, _⟩ => ⟨S1x512x512, .f32⟩
  | .local _ .vmem, ⟨1, _⟩ => ⟨S1x512x512, .f32⟩
  | .local _ .vmem, ⟨2, _⟩ => ⟨S1x2048x512, .bf16⟩
  | .local _ .vmem, ⟨3, _⟩ => ⟨S1x2048x512, .bf16⟩
  | .local _ .vmem, ⟨4, _⟩ => ⟨S1x512x1024, .f32⟩
  | .local _ .vmem, ⟨5, _⟩ => ⟨S1x512x1024, .f32⟩
  | _, _ => ⟨S8x2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  bitsLt_bf16_f32 : FTy.bits .bf16 < FTy.bits .f32
  inb_S1x512x512_S1x512x512_0_0_0 : ∀ a, (![0, 0, 0] : Fin 3 → Nat) a + S1x512x512.size a ≤ S1x512x512.size a
  h_S1x512x512 : 0 < S1x512x512.numel
  shapeCasts_S1x512x512_S512x512 : S1x512x512.ShapeCasts S512x512
  inb_S1x2048x512_S1x2048x512_0_0_0 : ∀ a, (![0, 0, 0] : Fin 3 → Nat) a + S1x2048x512.size a ≤ S1x2048x512.size a
  h_S1x2048x512 : 0 < S1x2048x512.numel
  shapeCasts_S1x2048x512_S2048x512 : S1x2048x512.ShapeCasts S2048x512
  reduces_S512x2048_S512 : S512x2048.Reduces [1] S512
  shapeCasts_S512_S512x1 : S512.ShapeCasts S512x1
  broadcasts_S512x1_S512x2048 : S512x1.Broadcasts S512x2048
  broadcasts_S512x1_S512x512 : S512x1.Broadcasts S512x512
  inb_S1x512x1024_S1x512x512_0_0_0 : ∀ a, (![0, 0, 0] : Fin 3 → Nat) a + S1x512x512.size a ≤ S1x512x1024.size a
  shapeCasts_S512x512_S1x512x512 : S512x512.ShapeCasts S1x512x512
  inb_S1x512x1024_S1x512x512_0_0_512 : ∀ a, (![0, 0, 512] : Fin 3 → Nat) a + S1x512x512.size a ≤ S1x512x1024.size a
  dot_S512x512_S2048x512_S512x2048_1_1_0_0_n_n_wf : DotDims.WF S512x512 S2048x512 S512x2048 [1] [1] [0] [0] [] []
  dot_S512x2048_S2048x512_S512x512_1_0_0_1_n_n_wf : DotDims.WF S512x2048 S2048x512 S512x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x512.size a ≤ S8x2048x512.size a
  hwx0_0 : ∀ i : grid0.Coords, EltTy.bits .f32 = 32 ∨ (Rect.block (s := S8x2048x512) S1x512x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2048x512.size a ≤ S8x2048x512.size a
  hwx0_1 : ∀ i : grid0.Coords, EltTy.bits .bf16 = 32 ∨ (Rect.block (s := S8x2048x512) S1x2048x512.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512x1024.size a ≤ S8x2048x1024.size a
  hwx0_2 : ∀ i : grid0.Coords, EltTy.bits .f32 = 32 ∨ (Rect.block (s := S8x2048x1024) S1x512x1024.size (cc0_transform_2 i) (hinb0_2 i)).WholeWords (EltTy.packing .f32)

variable [Facts₀]

def dot_S512x512_S2048x512_S512x2048_1_1_0_0_n_n : DotDims S512x512 S2048x512 S512x2048 where
  lhsContracting := [1]
  rhsContracting := [1]
  lhsNonContracting := [0]
  rhsNonContracting := [0]
  lhsBatch := []
  rhsBatch := []
  wf := dot_S512x512_S2048x512_S512x2048_1_1_0_0_n_n_wf
def dot_S512x2048_S2048x512_S512x512_1_0_0_1_n_n : DotDims S512x2048 S2048x512 S512x512 where
  lhsContracting := [1]
  rhsContracting := [0]
  lhsNonContracting := [0]
  rhsNonContracting := [1]
  lhsBatch := []
  rhsBatch := []
  wf := dot_S512x2048_S2048x512_S512x512_1_0_0_1_n_n_wf

abbrev win0_0 : Pipeline.Window sig grid0 :=
  Pipeline.Window.ofSpec (Memref.whole main_arg1) S1x512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x2048x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x512x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8x2048x512 : Shape := ⟨3, ![8, 2048, 512]⟩
abbrev S8x2048x2048 : Shape := ⟨3, ![8, 2048, 2048]⟩
abbrev S_ : Shape := ⟨0, ![]⟩
abbrev S8x2048 : Shape := ⟨2, ![8, 2048]⟩
abbrev S8x1x2048 : Shape := ⟨3, ![8, 1, 2048]⟩
abbrev S8x2048x1024 : Shape := ⟨3, ![8, 2048, 1024]⟩

abbrev nBuf : Space → Nat
  | .hbm => 19
  | .vmem => 0
  | .smem => 0
  | _ => 0

abbrev bufTy : (tb : Table) → Fin (tcTables nBuf tb) → BufTy
  | .hbm, ⟨0, _⟩ => ⟨S8x2048x512, .f32⟩
  | .hbm, ⟨1, _⟩ => ⟨S8x2048x512, .f32⟩
  | .hbm, ⟨2, _⟩ => ⟨S8x2048x2048, .f32⟩
  | .hbm, ⟨3, _⟩ => ⟨S_, .f32⟩
  | .hbm, ⟨4, _⟩ => ⟨S8x2048, .f32⟩
  | .hbm, ⟨5, _⟩ => ⟨S_, .f32⟩
  | .hbm, ⟨6, _⟩ => ⟨S8x2048, .f32⟩
  | .hbm, ⟨7, _⟩ => ⟨S8x2048, .f32⟩
  | .hbm, ⟨8, _⟩ => ⟨S8x1x2048, .f32⟩
  | .hbm, ⟨9, _⟩ => ⟨S8x2048x2048, .f32⟩
  | .hbm, ⟨10, _⟩ => ⟨S8x2048x2048, .f32⟩
  | .hbm, ⟨11, _⟩ => ⟨S8x2048x2048, .f32⟩
  | .hbm, ⟨12, _⟩ => ⟨S_, .f32⟩
  | .hbm, ⟨13, _⟩ => ⟨S8x2048, .f32⟩
  | .hbm, ⟨14, _⟩ => ⟨S8x1x2048, .f32⟩
  | .hbm, ⟨15, _⟩ => ⟨S8x2048x2048, .f32⟩
  | .hbm, ⟨16, _⟩ => ⟨S8x2048x2048, .f32⟩
  | .hbm, ⟨17, _⟩ => ⟨S8x2048x512, .f32⟩
  | .hbm, ⟨18, _⟩ => ⟨S8x2048x1024, .f32⟩
  | _, _ => ⟨S8x2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_1 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]

class Facts₀ : Prop where
  reducesTo_S8x2048x2048_S8x2048_d1 : S8x2048x2048.ReducesTo [1] S8x2048
  h_S_ : 0 < S_.numel
  bcast_S_S8x2048 : S_.BroadcastsInDim S8x2048 (![] : Fin 0 → Fin S8x2048.rank)
  bcast_S8x2048_S8x1x2048_0_2 : S8x2048.BroadcastsInDim S8x1x2048 (![0, 2] : Fin 2 → Fin S8x1x2048.rank)
  bcast_S8x1x2048_S8x2048x2048_0_1_2 : S8x1x2048.BroadcastsInDim S8x2048x2048 (![0, 1, 2] : Fin 3 → Fin S8x2048x2048.rank)
  concatenates_S8x2048x512_S8x2048x512_S8x2048x1024_d2 : Shape.Concatenates [S8x2048x512, S8x2048x512] S8x2048x1024 2
  dot_S8x2048x512_S8x2048x512_S8x2048x2048_2_2_1_1_0_0_wf : DotDims.WF S8x2048x512 S8x2048x512 S8x2048x2048 [2] [2] [1] [1] [0] [0]
  dot_S8x2048x2048_S8x2048x512_S8x2048x512_1_1_2_2_0_0_wf : DotDims.WF S8x2048x2048 S8x2048x512 S8x2048x512 [1] [1] [2] [2] [0] [0]

variable [Facts₀]

def dot_S8x2048x512_S8x2048x512_S8x2048x2048_2_2_1_1_0_0 : DotDims S8x2048x512 S8x2048x512 S8x2048x2048 where
  lhsContracting := [2]
  rhsContracting := [2]
  lhsNonContracting := [1]
  rhsNonContracting := [1]
  lhsBatch := [0]
  rhsBatch := [0]
  wf := dot_S8x2048x512_S8x2048x512_S8x2048x2048_2_2_1_1_0_0_wf
def dot_S8x2048x2048_S8x2048x512_S8x2048x512_1_1_2_2_0_0 : DotDims S8x2048x2048 S8x2048x512 S8x2048x512 where
  lhsContracting := [1]
  rhsContracting := [1]
  lhsNonContracting := [2]
  rhsNonContracting := [2]
  lhsBatch := [0]
  rhsBatch := [0]
  wf := dot_S8x2048x2048_S8x2048x512_S8x2048x512_1_1_2_2_0_0_wf

class Facts : Prop extends Facts₀ where

variable [Facts]
-- ==== Proof.SoftmaxRow.lean ====
/-
  One query row of unscaled dot-product attention over the extended reals, and the one law the certificate needs.

  For a query row q (512 entries) and key rows K (2048 rows of 512 entries, which are also the value rows):
    score e   = sum over d of q d * K e d
    peak      = the largest score (the fold of max from the bottom element)
    weight e  = exp (score e - peak)
    mass      = the sum of the weights
    context d = (sum over e of weight e * K e d) / mass
  and the output row is q followed by the context: 1024 entries.

  A softmax that first divides every weight by the mass and then contracts with the value rows computes
  sum over e of (weight e / mass) * K e d. On rows of real numbers the two are equal: every score is real, so the peak
  (a maximum of finitely many reals, the set not empty) is real, every weight is a positive real, the mass is a positive
  real, and division by it is multiplication by its reciprocal, which moves out of the finite sum. Off the reals the law
  fails (a product with an infinity does not distribute), which is why the rows are taken real here.
-/
import Idealize.ShloMosaic.PureOps.Ideal
import Idealize.ShloMosaic.PureOps.Ideal.Laws
import Mathlib.Data.Finset.Fold
import Idealize.ShloMosaic.Lib.ValueIdx

noncomputable section

open scoped BigOperators
open Idealize.ShloMosaic

namespace Cert.AttnRow

/-! ## Real sums and maxima inside the extended reals -/

/-- The coercion of a finite sum of reals is the sum of the coercions. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The maximum, from the bottom element, of finitely many reals over a set that is not empty is a real. -/
theorem fold_max_real {ι : Type*} (s : Finset ι) (hs : s.Nonempty) (f : ι → ℝ) :
    ∃ r : ℝ, s.fold max (⊥ : EReal) (fun i => (f i : EReal)) = (r : EReal) := by
  have hbot : s.fold max (⊥ : EReal) (fun i => (f i : EReal)) ≠ ⊥ := by
    obtain ⟨a, ha⟩ := hs
    exact ((Finset.lt_fold_max _).mpr (Or.inr ⟨a, ha, EReal.bot_lt_coe _⟩)).ne'
  have htop : s.fold max (⊥ : EReal) (fun i => (f i : EReal)) ≠ ⊤ :=
    ((Finset.fold_max_lt _).mpr ⟨bot_lt_top, fun x _ => EReal.coe_lt_top _⟩).ne
  exact ⟨_, (EReal.coe_toReal htop hbot).symm⟩

/-- Dividing each real term by a nonzero real before a contraction, or the contraction after it: one value. -/
theorem sum_div_mul {ι : Type*} [Fintype ι] (p x : ι → ℝ) (n : ℝ) (hn : n ≠ 0) :
    ∑ e, Ideal.div (p e : EReal) (n : EReal) * (x e : EReal) = Ideal.div (∑ e, (p e : EReal) * (x e : EReal)) (n : EReal) := by
  simp only [Ideal.div_coe hn, ← EReal.coe_mul, ← coe_sum]
  refine congrArg _ ?_
  rw [Finset.sum_mul]
  exact Finset.sum_congr rfl fun e _ => by ring

/-! ## The row -/

/-- The score of key row e against the query row: their dot product. -/
def score (q : Fin 512 → EReal) (K : Fin 2048 → Fin 512 → EReal) (e : Fin 2048) : EReal := ∑ d : Fin 512, q d * K e d

/-- The largest score of the row. -/
def peak (q : Fin 512 → EReal) (K : Fin 2048 → Fin 512 → EReal) : EReal :=
  (Finset.univ : Finset (Fin 2048)).fold max ⊥ (score q K)

/-- The unnormalised softmax weight of key row e. -/
def weight (q : Fin 512 → EReal) (K : Fin 2048 → Fin 512 → EReal) (e : Fin 2048) : EReal :=
  Ideal.exp (score q K e - peak q K)

/-- The sum of the weights. -/
def mass (q : Fin 512 → EReal) (K : Fin 2048 → Fin 512 → EReal) : EReal := ∑ e : Fin 2048, weight q K e

/-- The context: the weighted sum of the value rows (the key rows again), normalised after the contraction. -/
def context (q : Fin 512 → EReal) (K : Fin 2048 → Fin 512 → EReal) (d : Fin 512) : EReal :=
  Ideal.div (∑ e : Fin 2048, weight q K e * K e d) (mass q K)

/-- The output row: the query row, then its context. -/
def outRow (q : Fin 512 → EReal) (K : Fin 2048 → Fin 512 → EReal) (j : Fin 1024) : EReal :=
  if h : j.val < 512 then q ⟨j.val, h⟩ else context q K ⟨j.val - 512, by have := j.isLt; omega⟩

/-- Below column 512 the output row is the query row. -/
theorem outRow_left (q : Fin 512 → EReal) (K : Fin 2048 → Fin 512 → EReal) (j : Fin 1024) (d : Fin 512) (h : j.val = d.val) :
    outRow q K j = q d := by
  unfold outRow
  rw [dif_pos (by have := d.isLt; omega)]
  exact congrArg q (Fin.ext h)

/-- From column 512 on it is the context. -/
theorem outRow_right (q : Fin 512 → EReal) (K : Fin 2048 → Fin 512 → EReal) (j : Fin 1024) (d : Fin 512) (h : j.val = 512 + d.val) :
    outRow q K j = context q K d := by
  unfold outRow
  rw [dif_neg (by omega)]
  exact congrArg (context q K) (Fin.ext (by show j.val - 512 = d.val; omega))

/-! ## The whole result -/

open Idealize.ShloMosaic.ValueIdx in
/-- The whole result array, [8, 2048, 1024]: for batch b and decoder row t, the output row of decoder row (b, t)
    against the encoder rows of batch b. -/
def arrayOut (enc dec : (⟨3, ![8, 2048, 512]⟩ : Shape).Idx → EReal) : (⟨3, ![8, 2048, 1024]⟩ : Shape).Idx → EReal :=
  fun i => outRow (fun d => dec (ix3 (⟨(i 0).val, (i 0).isLt⟩ : Fin 8) (⟨(i 1).val, (i 1).isLt⟩ : Fin 2048) d))
    (fun e d => enc (ix3 (⟨(i 0).val, (i 0).isLt⟩ : Fin 8) e d)) (⟨(i 2).val, (i 2).isLt⟩ : Fin 1024)

open Idealize.ShloMosaic.ValueIdx in
theorem arrayOut_apply (enc dec : (⟨3, ![8, 2048, 512]⟩ : Shape).Idx → EReal) (b : Fin 8) (t : Fin 2048) (j : Fin 1024) :
    arrayOut enc dec (ix3 b t j) = outRow (fun d => dec (ix3 b t d)) (fun e d => enc (ix3 b e d)) j := rfl

/-! ## On real rows, normalising before the contraction gives the same context -/

section Real

variable (qr : Fin 512 → ℝ) (Kr : Fin 2048 → Fin 512 → ℝ)

theorem score_real (e : Fin 2048) :
    score (fun d => (qr d : EReal)) (fun e d => (Kr e d : EReal)) e = ((∑ d : Fin 512, qr d * Kr e d : ℝ) : EReal) := by
  unfold score
  simp only [← EReal.coe_mul, ← coe_sum]

theorem peak_real : ∃ r : ℝ, peak (fun d => (qr d : EReal)) (fun e d => (Kr e d : EReal)) = (r : EReal) := by
  unfold peak
  rw [show score (fun d => (qr d : EReal)) (fun e d => (Kr e d : EReal)) = fun e => ((∑ d : Fin 512, qr d * Kr e d : ℝ) : EReal) from
    funext fun e => score_real qr Kr e]
  exact fold_max_real _ Finset.univ_nonempty _

/-- The softmax weights divided by their sum and then contracted with the value rows are the context. -/
theorem normalised_contraction (d : Fin 512) :
    ∑ e : Fin 2048, Ideal.div (weight (fun d => (qr d : EReal)) (fun e d => (Kr e d : EReal)) e)
        (mass (fun d => (qr d : EReal)) (fun e d => (Kr e d : EReal))) * (Kr e d : EReal)
      = context (fun d => (qr d : EReal)) (fun e d => (Kr e d : EReal)) d := by
  obtain ⟨r, hr⟩ := peak_real qr Kr
  have hw : ∀ e, weight (fun d => (qr d : EReal)) (fun e d => (Kr e d : EReal)) e
      = ((Real.exp ((∑ d : Fin 512, qr d * Kr e d) - r) : ℝ) : EReal) := fun e => by
    unfold weight
    rw [score_real, hr, ← EReal.coe_sub, Ideal.exp_coe]
  have hm : mass (fun d => (qr d : EReal)) (fun e d => (Kr e d : EReal))
      = ((∑ e : Fin 2048, Real.exp ((∑ d : Fin 512, qr d * Kr e d) - r) : ℝ) : EReal) := by
    unfold mass
    simp only [hw, ← coe_sum]
  have hpos : (0 : ℝ) < ∑ e : Fin 2048, Real.exp ((∑ d : Fin 512, qr d * Kr e d) - r) :=
    Finset.sum_pos (fun e _ => Real.exp_pos _) Finset.univ_nonempty
  unfold context
  rw [hm]
  simp only [hw]
  exact sum_div_mul _ _ _ hpos.ne'

end Real

end Cert.AttnRow

end
-- ==== Proof.KernelBlock.lean ====
/-
  What the kernel body leaves in its output block, read at an index.

  At a grid point the body loads a block of 512 query rows (the decoder tile, 512 entries each) and the 2048 key rows
  of its batch (the encoder, 512 entries each; the key rows are also the value rows), and writes a block of 512 output
  rows of 1024 entries with two stores: columns 0 to 511 take the query rows unchanged, columns 512 to 1023 take

      (sum over e of exp (score r e - max over e' of score r e') * key e d) / (sum over e of exp (score r e - max ...))

  with score r e the dot product of query row r and key row e. That is, row by row, the output row of the row
  specification: entry j of row r is `outRow (query row r) (key rows) j`. The matrix products are read as sums over
  the contracted coordinate, the row maximum as a fold of max from the bottom element, the row sum as a sum, and the
  column of row statistics broadcast along the row as the statistic of that row.
-/
import proofs.«407125_j54631984005169_3_alg».proof.Proof.Gen.KernelIdeal.Frame
import proofs.«407125_j54631984005169_3_alg».proof.Proof.SoftmaxRow
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Block

open Cert.KernelIdeal Cert.KernelIdeal.Gen Idealize.ShloMosaic Idealize.ShloMosaic.ValueIdx Cert.AttnRow

/-! ## The scores: query rows against key rows, both contracted on their last coordinate -/

theorem lhs_scores_0 (i : S512x2048.Idx) (q : dot_S512x512_S2048x512_S512x2048_1_1_0_0_n_n.contr.Idx) :
    (dot_S512x512_S2048x512_S512x2048_1_1_0_0_n_n.lhsIdx i q 0).val = (i 0).val := by
  unfold DotDims.lhsIdx
  rw [dif_neg (show ¬(0 : Fin S512x512.rank) ∈ dot_S512x512_S2048x512_S512x2048_1_1_0_0_n_n.lhsBatch by decide), dif_pos (show (0 : Fin S512x512.rank) ∈ dot_S512x512_S2048x512_S512x2048_1_1_0_0_n_n.lhsNonContracting by decide)]
  rfl
theorem lhs_scores_1 (i : S512x2048.Idx) (q : dot_S512x512_S2048x512_S512x2048_1_1_0_0_n_n.contr.Idx) :
    (dot_S512x512_S2048x512_S512x2048_1_1_0_0_n_n.lhsIdx i q 1).val = (q ⟨0, by decide⟩).val :=
  dot_S512x512_S2048x512_S512x2048_1_1_0_0_n_n.lhsIdx_val_of_single rfl i q
theorem rhs_scores_0 (i : S512x2048.Idx) (q : dot_S512x512_S2048x512_S512x2048_1_1_0_0_n_n.contr.Idx) :
    (dot_S512x512_S2048x512_S512x2048_1_1_0_0_n_n.rhsIdx i q 0).val = (i 1).val := by
  unfold DotDims.rhsIdx
  rw [dif_neg (show ¬(0 : Fin S2048x512.rank) ∈ dot_S512x512_S2048x512_S512x2048_1_1_0_0_n_n.rhsBatch by decide), dif_pos (show (0 : Fin S2048x512.rank) ∈ dot_S512x512_S2048x512_S512x2048_1_1_0_0_n_n.rhsNonContracting by decide)]
  rfl
theorem rhs_scores_1 (i : S512x2048.Idx) (q : dot_S512x512_S2048x512_S512x2048_1_1_0_0_n_n.contr.Idx) :
    (dot_S512x512_S2048x512_S512x2048_1_1_0_0_n_n.rhsIdx i q 1).val = (q ⟨0, by decide⟩).val :=
  dot_S512x512_S2048x512_S512x2048_1_1_0_0_n_n.rhsIdx_val_of_single rfl i q

/-- Entry (r, e) of the score matrix is the dot product of query row r and key row e. -/
theorem scores_apply (a : FVec Ideal S512x512 .bf16) (b : FVec Ideal S2048x512 .bf16) (r : Fin 512) (e : Fin 2048) :
    matmul dot_S512x512_S2048x512_S512x2048_1_1_0_0_n_n none a b (constant S512x2048 .f32 0x00000000#32) (ix2 r e)
      = ∑ d : Fin 512, a (ix2 r d) * b (ix2 e d) := by
  simp only [matmul]
  rw [Ideal.matmul_constant_zero_apply, ← Equiv.sum_comp (contrEquiv1 dot_S512x512_S2048x512_S512x2048_1_1_0_0_n_n 512 rfl rfl).symm]
  refine Finset.sum_congr rfl fun k _ => ?_
  have hk := contrEquiv1_symm_val dot_S512x512_S2048x512_S512x2048_1_1_0_0_n_n 512 rfl rfl k
  have el : dot_S512x512_S2048x512_S512x2048_1_1_0_0_n_n.lhsIdx (ix2 r e) ((contrEquiv1 dot_S512x512_S2048x512_S512x2048_1_1_0_0_n_n 512 rfl rfl).symm k) = ix2 r k := funext fun a => Fin.ext (by
    match a with
    | ⟨0, _⟩ => exact lhs_scores_0 _ _
    | ⟨1, _⟩ => exact (lhs_scores_1 _ _).trans hk)
  have er : dot_S512x512_S2048x512_S512x2048_1_1_0_0_n_n.rhsIdx (ix2 r e) ((contrEquiv1 dot_S512x512_S2048x512_S512x2048_1_1_0_0_n_n 512 rfl rfl).symm k) = ix2 e k := funext fun a => Fin.ext (by
    match a with
    | ⟨0, _⟩ => exact rhs_scores_0 _ _
    | ⟨1, _⟩ => exact (rhs_scores_1 _ _).trans hk)
  rw [el, er]

/-! ## The weighted sum of the value rows: weights contracted on the key coordinate -/

theorem lhs_mix_0 (i : S512x512.Idx) (q : dot_S512x2048_S2048x512_S512x512_1_0_0_1_n_n.contr.Idx) :
    (dot_S512x2048_S2048x512_S512x512_1_0_0_1_n_n.lhsIdx i q 0).val = (i 0).val := by
  unfold DotDims.lhsIdx
  rw [dif_neg (show ¬(0 : Fin S512x2048.rank) ∈ dot_S512x2048_S2048x512_S512x512_1_0_0_1_n_n.lhsBatch by decide), dif_pos (show (0 : Fin S512x2048.rank) ∈ dot_S512x2048_S2048x512_S512x512_1_0_0_1_n_n.lhsNonContracting by decide)]
  rfl
theorem lhs_mix_1 (i : S512x512.Idx) (q : dot_S512x2048_S2048x512_S512x512_1_0_0_1_n_n.contr.Idx) :
    (dot_S512x2048_S2048x512_S512x512_1_0_0_1_n_n.lhsIdx i q 1).val = (q ⟨0, by decide⟩).val :=
  dot_S512x2048_S2048x512_S512x512_1_0_0_1_n_n.lhsIdx_val_of_single rfl i q
theorem rhs_mix_0 (i : S512x512.Idx) (q : dot_S512x2048_S2048x512_S512x512_1_0_0_1_n_n.contr.Idx) :
    (dot_S512x2048_S2048x512_S512x512_1_0_0_1_n_n.rhsIdx i q 0).val = (q ⟨0, by decide⟩).val :=
  dot_S512x2048_S2048x512_S512x512_1_0_0_1_n_n.rhsIdx_val_of_single rfl i q
theorem rhs_mix_1 (i : S512x512.Idx) (q : dot_S512x2048_S2048x512_S512x512_1_0_0_1_n_n.contr.Idx) :
    (dot_S512x2048_S2048x512_S512x512_1_0_0_1_n_n.rhsIdx i q 1).val = (i 1).val := by
  unfold DotDims.rhsIdx
  rw [dif_neg (show ¬(1 : Fin S2048x512.rank) ∈ dot_S512x2048_S2048x512_S512x512_1_0_0_1_n_n.rhsBatch by decide), dif_pos (show (1 : Fin S2048x512.rank) ∈ dot_S512x2048_S2048x512_S512x512_1_0_0_1_n_n.rhsNonContracting by decide)]
  rfl

/-- Entry (r, d) of the mixed value rows is the sum over the key rows of weight (r, e) times value (e, d). -/
theorem mix_apply (p : FVec Ideal S512x2048 .bf16) (b : FVec Ideal S2048x512 .bf16) (r d : Fin 512) :
    matmul dot_S512x2048_S2048x512_S512x512_1_0_0_1_n_n none p b (constant S512x512 .f32 0x00000000#32) (ix2 r d)
      = ∑ e : Fin 2048, p (ix2 r e) * b (ix2 e d) := by
  simp only [matmul]
  rw [Ideal.matmul_constant_zero_apply, ← Equiv.sum_comp (contrEquiv1 dot_S512x2048_S2048x512_S512x512_1_0_0_1_n_n 2048 rfl rfl).symm]
  refine Finset.sum_congr rfl fun k _ => ?_
  have hk := contrEquiv1_symm_val dot_S512x2048_S2048x512_S512x512_1_0_0_1_n_n 2048 rfl rfl k
  have el : dot_S512x2048_S2048x512_S512x512_1_0_0_1_n_n.lhsIdx (ix2 r d) ((contrEquiv1 dot_S512x2048_S2048x512_S512x512_1_0_0_1_n_n 2048 rfl rfl).symm k) = ix2 r k := funext fun a => Fin.ext (by
    match a with
    | ⟨0, _⟩ => exact lhs_mix_0 _ _
    | ⟨1, _⟩ => exact (lhs_mix_1 _ _).trans hk)
  have er : dot_S512x2048_S2048x512_S512x512_1_0_0_1_n_n.rhsIdx (ix2 r d) ((contrEquiv1 dot_S512x2048_S2048x512_S512x512_1_0_0_1_n_n 2048 rfl rfl).symm k) = ix2 k d := funext fun a => Fin.ext (by
    match a with
    | ⟨0, _⟩ => exact (rhs_mix_0 _ _).trans hk
    | ⟨1, _⟩ => exact rhs_mix_1 _ _)
  rw [el, er]

/-! ## Row statistics -/

/-- The row maximum: the fold of max, from the bottom element, over the row's entries. -/
theorem rowmax_apply (v : FVec Ideal S512x2048 .f32) (h : S512x2048.Reduces [1] S512) (hφ : FKind.Formats .f32)
    (hacc : (0xFF800000#32 : BitVec 32) = 0xFF800000#32) (r : Fin 512) :
    multiReduction .maximumf [1] S512 v 0xFF800000#32 h hφ hacc (ix1 r)
      = (Finset.univ : Finset (Fin 2048)).fold max (⊥ : EReal) (fun e => v (ix2 r e)) := by
  refine (Ideal.multiReduction_maximumf_single v 0xFF800000#32 h hφ hacc (ix1 r)).trans ?_
  have hb : FloatOps.ofBits (F := Ideal) .f32 0xFF800000#32 = (⊥ : EReal) := by simp [Ideal.ofBits, Ideal.ieee]
  rw [hb]
  exact Finset.fold_congr fun e _ => congrArg v (funext fun a => Fin.ext (by
    match a with
    | ⟨0, _⟩ => rfl
    | ⟨1, _⟩ => rfl))

/-- The row sum. -/
theorem rowsum_apply (v : FVec Ideal S512x2048 .f32) (h : S512x2048.Reduces [1] S512) (hφ : FKind.Formats .f32)
    (hacc : (0x00000000#32 : BitVec 32) = 0x00000000#32) (r : Fin 512) :
    multiReduction .add [1] S512 v 0x00000000#32 h hφ hacc (ix1 r) = ∑ e : Fin 2048, v (ix2 r e) := by
  refine (Ideal.multiReduction_add_single v 0x00000000#32 h hφ hacc (ix1 r)).trans ?_
  exact Finset.sum_congr rfl fun e _ => congrArg v (funext fun a => Fin.ext (by
    match a with
    | ⟨0, _⟩ => rfl
    | ⟨1, _⟩ => rfl))

/-- A vector of 512 row statistics laid out as a column and broadcast along each row reads, at (r, c), statistic r. -/
theorem column_apply {b : ℕ} (w : (⟨1, ![512]⟩ : Shape).Idx → EReal) (h1 : (⟨1, ![512]⟩ : Shape).ShapeCasts ⟨2, ![512, 1]⟩)
    (h2 : (⟨2, ![512, 1]⟩ : Shape).Broadcasts ⟨2, ![512, b]⟩) (r : Fin 512) (c : Fin b) :
    broadcastTo ⟨2, ![512, b]⟩ (shapeCast ⟨2, ![512, 1]⟩ w h1) h2 (ix2 r c) = w (ix1 r) := by
  refine (broadcastTo_apply _ h2 (ix2 r c) (ix2 r (0 : Fin 1)) fun ax => ?_).trans ?_
  · match ax with
    | ⟨0, _⟩ => show r.val = if (512 : ℕ) = 1 then 0 else r.val; rw [if_neg (by decide)]
    | ⟨1, _⟩ => show (0 : ℕ) = if (1 : ℕ) = 1 then 0 else c.val; rw [if_pos rfl]
  · exact shapeCast_apply w h1 _ _ (by
      rw [Shape.rowMajor_val_one, Shape.rowMajor_val_two]
      show r.val = r.val * 1 + 0
      omega)

/-- The exponential at an index. -/
theorem exp_apply {s : Shape} {φ : FTy} (a : FVec Ideal s φ) (i : s.Idx) : exp a i = Ideal.exp (a i) := rfl

/-! ## The two stored values -/

/-- The first store's value is the loaded query block itself (a cast to rank 2 and back). -/
theorem query_payload (v0 : Vec Ideal S1x512x512 .f32) : k0_pay2 (F := Ideal) v0 = v0 := by
  unfold k0_pay2 k0_pay1
  exact shapeCast_shapeCast _ _ _

/-- The second store's value at (r, d) is the context of query row r at d. -/
theorem context_payload (v0 : Vec Ideal S1x512x512 .f32) (v2 : Vec Ideal S1x2048x512 .bf16) (u : Fin 1) (r d : Fin 512) :
    k0_pay3 (F := Ideal) v0 v2 (ix3 u r d)
      = context (fun d' => v0 (ix3 (0 : Fin 1) r d')) (fun e d' => v2 (ix3 (0 : Fin 1) e d')) d := by
  unfold k0_pay3 k0_pay1 context mass weight peak score
  simp (config := { index := false }) only [shapeCast_ab_1ab_apply, divf_apply, mix_apply, column_apply, rowsum_apply, exp_apply,
    truncf_apply, subf_apply, scores_apply, rowmax_apply, shapeCast_1ab_ab_apply]

/-! ## The block the two stores leave -/

/-- The output block as one function of the loaded blocks: row r is the output row of query row r against the key rows. -/
def blockOut (x0 : Vec Ideal S1x512x512 .f32) (x1 : Vec Ideal S1x2048x512 .bf16) : Vec Ideal S1x512x1024 .f32 :=
  fun y => outRow (fun d => x0 (ix3 (0 : Fin 1) (⟨(y 1).val, (y 1).isLt⟩ : Fin 512) d)) (fun e d => x1 (ix3 (0 : Fin 1) e d))
    (⟨(y 2).val, (y 2).isLt⟩ : Fin 1024)

theorem blockOut_apply (x0 : Vec Ideal S1x512x512 .f32) (x1 : Vec Ideal S1x2048x512 .bf16) (u : Fin 1) (r : Fin 512) (j : Fin 1024) :
    blockOut x0 x1 (ix3 u r j) = outRow (fun d => x0 (ix3 (0 : Fin 1) r d)) (fun e d => x1 (ix3 (0 : Fin 1) e d)) j := rfl

theorem zero_offsets : (![0, 0, 0] : Fin 3 → Nat) = fun _ => 0 := funext fun a => by fin_cases a <;> rfl

/-- The body's two stores tile the output block, and each stores the part of `blockOut` its rectangle names: the first
    the query columns, the second the context columns. So the block after the body is `blockOut` of the loaded blocks. -/
theorem out0_2_eq (x0 : Vec Ideal S1x512x512 .f32) (x1 : Vec Ideal S1x2048x512 .bf16) :
    out0_2 (F := Ideal) x0 x1 = blockOut x0 x1 := by
  funext y
  unfold out0_2
  refine View.canon_apply_of_pieces (blockOut x0 x1) _ ?_ y (cover0_2 _ _ y)
  intro p hp x
  rcases List.mem_cons.mp hp with rfl | hp
  · show k0_pay3 (View.ld x0 r0_0) (View.ld x1 r0_1) x = blockOut x0 x1 (r0_3.emb x)
    rw [View.ld_unit_zero (S := S1x512x512) zero_offsets, View.ld_unit_zero (S := S1x2048x512) zero_offsets]
    obtain ⟨u, r, d, rfl⟩ : ∃ (u : Fin 1) (r d : Fin 512), x = ix3 u r d := ⟨x 0, x 1, x 2, eq_ix3 x⟩
    rw [context_payload]
    have e : r0_3.emb (ix3 u r d) = ix3 (0 : Fin 1) r (⟨512 + d.val, by have := d.isLt; omega⟩ : Fin 1024) :=
      funext fun a => Fin.ext (by
        match a with
        | ⟨0, _⟩ => show 0 + 1 * u.val = 0; have := u.isLt; omega
        | ⟨1, _⟩ => show 0 + 1 * r.val = r.val; omega
        | ⟨2, _⟩ => show 512 + 1 * d.val = 512 + d.val; omega)
    rw [e, blockOut_apply]
    exact (outRow_right _ _ _ d rfl).symm
  · obtain rfl := List.mem_singleton.mp hp
    show k0_pay2 (View.ld x0 r0_0) x = blockOut x0 x1 (r0_2.emb x)
    rw [View.ld_unit_zero (S := S1x512x512) zero_offsets, query_payload]
    obtain ⟨u, r, d, rfl⟩ : ∃ (u : Fin 1) (r d : Fin 512), x = ix3 u r d := ⟨x 0, x 1, x 2, eq_ix3 x⟩
    have e : r0_2.emb (ix3 u r d) = ix3 (0 : Fin 1) r (⟨d.val, by have := d.isLt; omega⟩ : Fin 1024) :=
      funext fun a => Fin.ext (by
        match a with
        | ⟨0, _⟩ => show 0 + 1 * u.val = 0; have := u.isLt; omega
        | ⟨1, _⟩ => show 0 + 1 * r.val = r.val; omega
        | ⟨2, _⟩ => show 0 + 1 * d.val = d.val; omega)
    rw [e, blockOut_apply, outRow_left _ _ _ d rfl]
    exact congrArg x0 (funext fun a => Fin.ext (by
      match a with
      | ⟨0, _⟩ => show u.val = 0; have := u.isLt; omega
      | ⟨1, _⟩ => rfl
      | ⟨2, _⟩ => rfl))

end Cert.KernelIdeal.Block

end
-- ==== Proof.KernelArray.lean ====
/-
  The kernel's result array as one function of its arguments.

  The grid has 32 points, (batch b, tile q) with b below 8 and q below 4. At point (b, q) the query block is rows
  512 q to 512 q + 511 of batch b of the decoder argument, the key block is all 2048 rows of batch b of the encoder
  (the host narrows the encoder before the call, which over the extended reals changes nothing), and the output block is
  rows 512 q to 512 q + 511 of batch b of the result, all 1024 columns. The body leaves in the output block, row by row,
  the output row of that query row against those key rows (the block module), which is the same rows of `arrayOut` of the
  two arguments; the 32 output blocks tile the result array, so after the run the result array is `arrayOut`.
-/
import proofs.«407125_j54631984005169_3_alg».proof.Proof.Gen.KernelIdeal.Value
import proofs.«407125_j54631984005169_3_alg».proof.Proof.KernelBlock
import Idealize.ShloMosaic.Lib.StableHlo.Run
import Idealize.ShloMosaic.Lib.Tactic

noncomputable section

open Idealize.ShloMosaic Idealize.ShloMosaic.TcCoe Idealize.SL.Sem
open Idealize.ShloMosaic.Pipeline (Dat)

namespace Cert.KernelIdeal.Whole

open Cert.KernelIdeal Cert.KernelIdeal.Gen Cert.KernelIdeal.Value Cert.KernelIdeal.Block Idealize.ShloMosaic.ValueIdx Cert.AttnRow

variable (m : (ℓ : Loc nD τ sig) → Buf (Elt Ideal) ℓ) (ρ : Dev nD → PrngReg)

/-- The encoder as the region finds it is the host's narrowed copy of the argument: over the extended reals, the argument. -/
theorem V_enc (c : Dev nD) :
    (V m c main_v0 : S8x2048x512.Idx → EReal) = (m ((c : Thread nD τ).loc main_arg0) : S8x2048x512.Idx → EReal) := by
  dsimp only [Gen.V, Gen.hostOps0]
  after_results
  rfl

/-- The three index maps over the grid: the query and output blocks move together over (batch, tile); the key block
    follows the batch only; the batch is below 8 and the tile below 4. -/
theorem idx_facts : ∀ t : Fin cfg0.N,
    win0_0.index t (0 : Fin 3) = win0_2.index t (0 : Fin 3) ∧ win0_0.index t (1 : Fin 3) = win0_2.index t (1 : Fin 3)
    ∧ win0_0.index t (2 : Fin 3) = 0
    ∧ win0_1.index t (0 : Fin 3) = win0_2.index t (0 : Fin 3) ∧ win0_1.index t (1 : Fin 3) = 0 ∧ win0_1.index t (2 : Fin 3) = 0
    ∧ win0_2.index t (2 : Fin 3) = 0 ∧ win0_2.index t (0 : Fin 3) < 8 ∧ win0_2.index t (1 : Fin 3) < 4 :=
  (by decide +kernel : ∀ t : Fin grid0.N, _)

/-- Every (batch, tile) pair is some point's output block. -/
theorem idx_onto : ∀ (b : Fin 8) (q : Fin 4), ∃ t : Fin cfg0.N, win0_2.index t = ![b.val, q.val, 0] :=
  (by decide +kernel : ∀ (b : Fin 8) (q : Fin 4), ∃ t : Fin grid0.N, win0_2.index t = ![b.val, q.val, 0])

/-- Row r of the query block at a point is row 512 q + r of batch b of the decoder argument. -/
theorem query_block (c : Dev nD) (t : Fin cfg0.N) (r d : Fin 512) (k : S8x2048x512.Idx)
    (h0 : (k 0).val = win0_2.index t (0 : Fin 3)) (h1 : (k 1).val = win0_2.index t (1 : Fin 3) * 512 + r.val)
    (h2 : (k 2).val = d.val) :
    (iblk m c 0 t : Vec Ideal S1x512x512 .f32) (ix3 (0 : Fin 1) r d)
      = (m ((c : Thread nD τ).loc main_arg1) : S8x2048x512.Idx → EReal) k := by
  obtain ⟨e0, e1, e2, -⟩ := idx_facts t
  unfold iblk
  rw [View.read_apply]
  show V m c main_arg1 _ = _
  rw [V_main_arg1]
  refine congrArg _ (funext fun a => Fin.ext ?_)
  match a with
  | ⟨0, _⟩ => show win0_0.index t (0 : Fin 3) * 1 + 1 * 0 = (k 0).val; omega
  | ⟨1, _⟩ => show win0_0.index t (1 : Fin 3) * 512 + 1 * r.val = (k 1).val; omega
  | ⟨2, _⟩ => show win0_0.index t (2 : Fin 3) * 512 + 1 * d.val = (k 2).val; omega

/-- Row e of the key block at a point is row e of batch b of the encoder argument. -/
theorem key_block (c : Dev nD) (t : Fin cfg0.N) (e : Fin 2048) (d : Fin 512) (k : S8x2048x512.Idx)
    (h0 : (k 0).val = win0_2.index t (0 : Fin 3)) (h1 : (k 1).val = e.val) (h2 : (k 2).val = d.val) :
    (iblk m c 1 t : Vec Ideal S1x2048x512 .bf16) (ix3 (0 : Fin 1) e d)
      = (m ((c : Thread nD τ).loc main_arg0) : S8x2048x512.Idx → EReal) k := by
  obtain ⟨-, -, -, e3, e4, e5, -⟩ := idx_facts t
  unfold iblk
  rw [View.read_apply]
  show (V m c main_v0 : S8x2048x512.Idx → EReal) _ = _
  rw [V_enc]
  refine congrArg _ (funext fun a => Fin.ext ?_)
  match a with
  | ⟨0, _⟩ => show win0_1.index t (0 : Fin 3) * 1 + 1 * 0 = (k 0).val; omega
  | ⟨1, _⟩ => show win0_1.index t (1 : Fin 3) * 2048 + 1 * e.val = (k 1).val; omega
  | ⟨2, _⟩ => show win0_1.index t (2 : Fin 3) * 512 + 1 * d.val = (k 2).val; omega

/-- What a point writes back is its block of `arrayOut` of the two arguments. -/
theorem flushed_eq (c : Dev nD) (t : Fin cfg0.N) :
    (dats m 0 c).flushed 2 t = ((cfg0.win 2).blk t).view.read (Elt Ideal)
      (arrayOut (m ((c : Thread nD τ).loc main_arg0)) (m ((c : Thread nD τ).loc main_arg1))) := by
  rw [Value.flushed2, out0_2_eq (iblk m c 0 t) (iblk m c 1 t)]
  obtain ⟨e0, e1, e2, e3, e4, e5, e6, e7, e8⟩ := idx_facts t
  funext y
  obtain ⟨u, r, j, rfl⟩ : ∃ (u : Fin 1) (r : Fin 512) (j : Fin 1024), y = ix3 u r j :=
    ⟨y 0, y 1, y 2, eq_ix3 (n0 := 1) (n1 := 512) (n2 := 1024) y⟩
  show blockOut (iblk m c 0 t) (iblk m c 1 t) (ix3 u r j)
    = arrayOut (m ((c : Thread nD τ).loc main_arg0)) (m ((c : Thread nD τ).loc main_arg1)) (((cfg0.win 2).blk t).view.emb (ix3 u r j))
  have hemb : ((cfg0.win 2).blk t).view.emb (ix3 u r j)
      = ix3 (⟨win0_2.index t (0 : Fin 3), e7⟩ : Fin 8) (⟨win0_2.index t (1 : Fin 3) * 512 + r.val, by have := r.isLt; omega⟩ : Fin 2048) j :=
    funext fun a => Fin.ext (by
      match a with
      | ⟨0, _⟩ => show win0_2.index t (0 : Fin 3) * 1 + 1 * u.val = win0_2.index t (0 : Fin 3); have := u.isLt; omega
      | ⟨1, _⟩ => show win0_2.index t (1 : Fin 3) * 512 + 1 * r.val = win0_2.index t (1 : Fin 3) * 512 + r.val; omega
      | ⟨2, _⟩ => show win0_2.index t (2 : Fin 3) * 1024 + 1 * j.val = j.val; omega)
  rw [hemb, blockOut_apply, arrayOut_apply]
  have hq : (fun d => (iblk m c 0 t : Vec Ideal S1x512x512 .f32) (ix3 (0 : Fin 1) r d))
      = fun d => (m ((c : Thread nD τ).loc main_arg1) : S8x2048x512.Idx → EReal)
          (ix3 (⟨win0_2.index t (0 : Fin 3), e7⟩ : Fin 8) (⟨win0_2.index t (1 : Fin 3) * 512 + r.val, by have := r.isLt; omega⟩ : Fin 2048) d) :=
    funext fun d => query_block m c t r d _ rfl rfl rfl
  have hk : (fun e d => (iblk m c 1 t : Vec Ideal S1x2048x512 .bf16) (ix3 (0 : Fin 1) e d))
      = fun e d => (m ((c : Thread nD τ).loc main_arg0) : S8x2048x512.Idx → EReal) (ix3 (⟨win0_2.index t (0 : Fin 3), e7⟩ : Fin 8) e d) :=
    funext fun e => funext fun d => key_block m c t e d _ rfl rfl rfl
  rw [hq, hk]

/-- An index of the result is in a point's block iff each coordinate is in the block's range on its axis. -/
theorem mem_blk (t : Fin cfg0.N) (i : S8x2048x1024.Idx) :
    i ∈ ((cfg0.win 2).blk t).view.set ↔ ∀ a : Fin 3, win0_2.index t a * S1x512x1024.size a ≤ (i a).val
      ∧ (i a).val < win0_2.index t a * S1x512x1024.size a + S1x512x1024.size a := by
  show i ∈ ((View.whole main_v1).slice (win0_2.rect t)).set ↔ _
  rw [View.set_slice_whole, Rect.mem_set_unit]
  exact Iff.rfl

/-- Every index of the result is in the block of the point (its batch, its row's tile). -/
theorem cover (i : S8x2048x1024.Idx) :
    ∃ t : Fin cfg0.N, (cfg0.win 2).flush t = true ∧ i ∈ ((cfg0.win 2).blk t).view.set := by
  have hi0 : (i 0).val < 8 := (i 0).isLt
  have hi1 : (i 1).val < 2048 := (i 1).isLt
  have hi2 : (i 2).val < 1024 := (i 2).isLt
  obtain ⟨t, ht⟩ := idx_onto ⟨(i 0).val, hi0⟩ ⟨(i 1).val / 512, by omega⟩
  have q0 : win0_2.index t (0 : Fin 3) = (i 0).val := congrFun ht 0
  have q1 : win0_2.index t (1 : Fin 3) = (i 1).val / 512 := congrFun ht 1
  have q2 : win0_2.index t (2 : Fin 3) = 0 := congrFun ht 2
  refine ⟨t, flush0_2 t, ?_⟩
  rw [mem_blk]
  intro a
  match a with
  | ⟨0, _⟩ => show win0_2.index t (0 : Fin 3) * 1 ≤ (i 0).val ∧ (i 0).val < win0_2.index t (0 : Fin 3) * 1 + 1; omega
  | ⟨1, _⟩ => show win0_2.index t (1 : Fin 3) * 512 ≤ (i 1).val ∧ (i 1).val < win0_2.index t (1 : Fin 3) * 512 + 512; omega
  | ⟨2, _⟩ => show win0_2.index t (2 : Fin 3) * 1024 ≤ (i 2).val ∧ (i 2).val < win0_2.index t (2 : Fin 3) * 1024 + 1024; omega

/-- The result array after the run. -/
theorem final (c : Dev nD) : (dats m 0 c).arrAt 2 cfg0.N
    = arrayOut (m ((c : Thread nD τ).loc main_arg0)) (m ((c : Thread nD τ).loc main_arg1)) :=
  (dats m 0 c).arrAt_eq_of_cover 2 _ (fun t _ => flushed_eq m c t) cover

/-- The kernel's run: every weakly fair execution ends with the result array at `arrayOut` of the arguments, the
    arguments unchanged. -/
theorem run : θ_run defs (onTc (τ := τ) (main (F := Ideal))) ⟨m, fun _ => 0, ρ⟩ fun r => ∀ c : Dev nD,
      r.2.mem ((c : Thread nD τ).loc main_v1)
        = arrayOut (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Value.run_blocks m ρ)

end Cert.KernelIdeal.Whole

end
-- ==== Proof.RefValue.lean ====
/-
  The reference's result, stage by stage, is `arrayOut` of its arguments when they hold real numbers.

  For batch b, encoder row e and decoder row t the reference's score is the dot product of encoder row (b, e) and decoder
  row (b, t) — the row specification's score of key row e against query row t, the factors in the other order —; its
  maximum over e (taken from the bottom element, and once more against it) is the peak; the exponential of the difference
  is the weight; the sum over e is the mass; the weight divided by the mass is the softmax; the softmax contracted over e
  with the encoder rows is the normalised contraction, which on real rows is the context; and the concatenation puts the
  decoder row in columns 0 to 511 and that in columns 512 to 1023: the output row.
-/
import proofs.«407125_j54631984005169_3_alg».proof.Proof.Gen.ReferenceIdeal.Read
import proofs.«407125_j54631984005169_3_alg».proof.Proof.SoftmaxRow
import Idealize.ShloMosaic.Lib.Pipeline.Value
import Idealize.ShloMosaic.Lib.ValueIdx
import Idealize.ShloMosaic.PureOps.Ideal.Laws
import Idealize.ShloMosaic.PureOps.Reduce

noncomputable section

namespace Cert.ReferenceIdeal.RefValue

open Cert.ReferenceIdeal Cert.ReferenceIdeal.Gen Cert.ReferenceIdeal.Read Idealize.ShloMosaic Idealize.ShloMosaic.ValueIdx Cert.AttnRow

variable (x0 x1 : (⟨S8x2048x512, .f32⟩ : BufTy).Contents (Elt Ideal))

theorem neg_inf : FloatOps.ofBits (F := Ideal) .f32 0xFF800000#32 = (⊥ : EReal) := by simp [Ideal.ofBits, Ideal.ieee]

/-- The score of encoder row (b, e) against decoder row (b, t). -/
theorem ref_score (b : Fin 8) (e t : Fin 2048) :
    val_main_v0 (F := Ideal) x0 x1 (ix3 b e t) = score (fun d => x1 (ix3 b t d)) (fun e' d => x0 (ix3 b e' d)) e := by
  rw [val_main_v0_apply]
  show _ = ∑ d : Fin 512, x1 (ix3 b t d) * x0 (ix3 b e d)
  refine Finset.sum_congr rfl fun d _ => ?_
  rw [mul_comm]
  have el : lidx_main_v0 (ix3 b e t) d = ix3 b e d := funext fun a => Fin.ext (by
    match a with
    | ⟨0, _⟩ => rfl
    | ⟨1, _⟩ => rfl
    | ⟨2, _⟩ => rfl)
  have er : ridx_main_v0 (ix3 b e t) d = ix3 b t d := funext fun a => Fin.ext (by
    match a with
    | ⟨0, _⟩ => rfl
    | ⟨1, _⟩ => rfl
    | ⟨2, _⟩ => rfl)
  rw [el, er]

/-- The maximum over the encoder rows. -/
theorem ref_peak (b : Fin 8) (t : Fin 2048) :
    val_main_v3 (F := Ideal) x0 x1 (ix2 b t) = peak (fun d => x1 (ix3 b t d)) (fun e' d => x0 (ix3 b e' d)) := by
  rw [val_main_v3_apply, val_main_v2_apply, val_main_cst_0_apply, neg_inf]
  show max ⊥ (val_main_v1 (F := Ideal) x0 x1 (ix2 b t)) = _
  rw [max_eq_right bot_le]
  unfold val_main_v1
  have h : S8x2048x2048.Reduces [1] S8x2048 := by decide
  rw [Host.reduce_eq_fold_single FloatOps.maximumf _ _ reducesTo_S8x2048x2048_S8x2048_d1 h h_S_ (ix2 b t)]
  have hc : val_main_cst (F := Ideal) (Shape.Idx.first h_S_) = (⊥ : EReal) := neg_inf
  rw [hc]
  unfold peak
  have hf : (val_main_v0 (F := Ideal) x0 x1 ∘ h.lift (ix2 b t)) = score (fun d => x1 (ix3 b t d)) (fun e' d => x0 (ix3 b e' d)) :=
    funext fun e => by
      show val_main_v0 (F := Ideal) x0 x1 (h.lift (ix2 b t) e) = _
      rw [show h.lift (ix2 b t) e = ix3 b e t from funext fun a => Fin.ext (by
        match a with
        | ⟨0, _⟩ => rfl
        | ⟨1, _⟩ => rfl
        | ⟨2, _⟩ => rfl)]
      exact ref_score x0 x1 b e t
  exact congrArg (fun f => Finset.fold max (⊥ : EReal) f (Finset.univ : Finset (Fin 2048))) hf

/-- The unnormalised softmax weight. -/
theorem ref_weight (b : Fin 8) (e t : Fin 2048) :
    val_main_v7 (F := Ideal) x0 x1 (ix3 b e t) = weight (fun d => x1 (ix3 b t d)) (fun e' d => x0 (ix3 b e' d)) e := by
  rw [val_main_v7_apply, val_main_v6_apply, val_main_v5_apply, val_main_v4_apply]
  have ei : idx_main_v4 (idx_main_v5 (ix3 b e t)) = ix2 b t := funext fun a => Fin.ext (by
    match a with
    | ⟨0, _⟩ => rfl
    | ⟨1, _⟩ => rfl)
  rw [ei, ref_score, ref_peak]
  rfl

/-- The sum of the weights over the encoder rows. -/
theorem ref_mass (b : Fin 8) (t : Fin 2048) :
    val_main_v8 (F := Ideal) x0 x1 (ix2 b t) = mass (fun d => x1 (ix3 b t d)) (fun e' d => x0 (ix3 b e' d)) := by
  rw [val_main_v8_apply, val_main_cst_1_apply]
  have hz : FloatOps.ofBits (F := Ideal) .f32 0x00000000#32 = (0 : EReal) := Ideal.ofBits_zero_f32
  rw [hz, zero_add]
  unfold mass
  refine Finset.sum_congr rfl fun e _ => ?_
  have ei : idx_main_v8 (ix2 b t) e = ix3 b e t := funext fun a => Fin.ext (by
    match a with
    | ⟨0, _⟩ => rfl
    | ⟨1, _⟩ => rfl
    | ⟨2, _⟩ => rfl)
  rw [ei, ref_weight]

/-- The softmax: the weight over the mass. -/
theorem ref_softmax (b : Fin 8) (e t : Fin 2048) :
    val_main_v11 (F := Ideal) x0 x1 (ix3 b e t)
      = Ideal.div (weight (fun d => x1 (ix3 b t d)) (fun e' d => x0 (ix3 b e' d)) e)
          (mass (fun d => x1 (ix3 b t d)) (fun e' d => x0 (ix3 b e' d))) := by
  rw [val_main_v11_apply, val_main_v10_apply, val_main_v9_apply]
  have ei : idx_main_v9 (idx_main_v10 (ix3 b e t)) = ix2 b t := funext fun a => Fin.ext (by
    match a with
    | ⟨0, _⟩ => rfl
    | ⟨1, _⟩ => rfl)
  rw [ei, ref_weight, ref_mass]
  rfl

/-- The softmax contracted with the encoder rows. -/
theorem ref_contraction (b : Fin 8) (t : Fin 2048) (d : Fin 512) :
    val_main_v12 (F := Ideal) x0 x1 (ix3 b t d)
      = ∑ e : Fin 2048, Ideal.div (weight (fun d' => x1 (ix3 b t d')) (fun e' d' => x0 (ix3 b e' d')) e)
          (mass (fun d' => x1 (ix3 b t d')) (fun e' d' => x0 (ix3 b e' d'))) * x0 (ix3 b e d) := by
  rw [val_main_v12_apply]
  refine Finset.sum_congr rfl fun e _ => ?_
  have el : lidx_main_v12 (ix3 b t d) e = ix3 b e t := funext fun a => Fin.ext (by
    match a with
    | ⟨0, _⟩ => rfl
    | ⟨1, _⟩ => rfl
    | ⟨2, _⟩ => rfl)
  have er : ridx_main_v12 (ix3 b t d) e = ix3 b e d := funext fun a => Fin.ext (by
    match a with
    | ⟨0, _⟩ => rfl
    | ⟨1, _⟩ => rfl
    | ⟨2, _⟩ => rfl)
  rw [el, er, ref_softmax]

/-- On arguments that hold real numbers the reference's result is `arrayOut` of them. -/
theorem result_eq (hx0 : ∀ i, ∃ r : ℝ, x0 i = (r : EReal)) (hx1 : ∀ i, ∃ r : ℝ, x1 i = (r : EReal)) :
    val_main_v13 (F := Ideal) x0 x1 = arrayOut x0 x1 := by
  funext i
  obtain ⟨b, t, j, rfl⟩ : ∃ (b : Fin 8) (t : Fin 2048) (j : Fin 1024), i = ix3 b t j := ⟨i 0, i 1, i 2, eq_ix3 i⟩
  rw [arrayOut_apply]
  unfold val_main_v13
  by_cases hj : j.val < 512
  · refine (concatenate_pair_apply_left (2 : Fin 3) x1 (val_main_v12 (F := Ideal) x0 x1)
      concatenates_S8x2048x512_S8x2048x512_S8x2048x1024_d2 (ix3 b t j) rfl (ix3 b t (⟨j.val, hj⟩ : Fin 512)) (fun a => by
        match a with
        | ⟨0, _⟩ => rfl
        | ⟨1, _⟩ => rfl
        | ⟨2, _⟩ => rfl)).trans ?_
    exact (outRow_left (fun d => x1 (ix3 b t d)) (fun e d => x0 (ix3 b e d)) j ⟨j.val, hj⟩ rfl).symm
  · have hd : j.val - 512 < 512 := by have := j.isLt; omega
    refine (concatenate_pair_apply_right (2 : Fin 3) x1 (val_main_v12 (F := Ideal) x0 x1)
      concatenates_S8x2048x512_S8x2048x512_S8x2048x1024_d2 (ix3 b t j) rfl rfl (ix3 b t (⟨j.val - 512, hd⟩ : Fin 512)) (fun a ha => by
        match a with
        | ⟨0, _⟩ => rfl
        | ⟨1, _⟩ => rfl
        | ⟨2, _⟩ => exact (ha (Fin.ext rfl)).elim) (by show j.val - 512 + 512 = j.val; omega)).trans ?_
    rw [outRow_right (fun d => x1 (ix3 b t d)) (fun e d => x0 (ix3 b e d)) j ⟨j.val - 512, hd⟩ (by show j.val = 512 + (j.val - 512); omega), ref_contraction]
    choose A hA using hx0
    choose D hD using hx1
    simp only [hA, hD]
    exact normalised_contraction (fun d => D (ix3 b t d)) (fun e d => A (ix3 b e d)) ⟨j.val - 512, hd⟩

end Cert.ReferenceIdeal.RefValue

end
-- ==== Proof.Finite.lean ====
/-
  The precondition read back: both inputs hold real numbers.

  The precondition is the conjunction, over both inputs, of "every entry x has |x| below plus infinity", each conjunct an
  all-reduction by `and` of the entrywise comparison. Over the extended reals |x| is max x (-x), which is plus infinity at
  both infinities, so the comparison holds exactly at the reals.
-/
import proofs.«407125_j54631984005169_3_alg».proof.Pre_finite_inputs
import Idealize.ShloMosaic.Lib.ReduceAll
import Idealize.ShloMosaic.Lib.ValueIdx
import Idealize.ShloMosaic.PureOps.Ideal.Laws

noncomputable section

namespace Cert.Pre_finite_inputs.Finite

open Idealize.ShloMosaic Cert.Pre_finite_inputs

variable [Facts]

instance : Subsingleton S_.Idx := ⟨fun a b => funext fun d => d.elim0⟩

/-- An extended real whose absolute value compares below plus infinity is a real. -/
theorem real_of_abs_lt_inf (x : EReal)
    (h : Ideal.cmp .olt (max x (-x)) (Ideal.ofBits .f32 0x7F800000#32) = 1#1) : ∃ r : ℝ, x = (r : EReal) := by
  have htop : Ideal.ofBits .f32 0x7F800000#32 = (⊤ : EReal) := by simp [Ideal.ofBits, Ideal.ieee]
  rw [htop] at h
  induction x using EReal.rec with
  | bot => simp [Ideal.cmp] at h
  | top => simp [Ideal.cmp] at h
  | coe r => exact ⟨r, rfl⟩

/-- Under the precondition every entry of both inputs is a real. -/
theorem finite_of_pre (a0 a1 : FVec Ideal S8x2048x512 .f32) (h : fn (F := Ideal) a0 a1 = fun _ => 1#1) :
    (∀ i, ∃ r : ℝ, a0 i = (r : EReal)) ∧ (∀ i, ∃ r : ℝ, a1 i = (r : EReal)) := by
  have h0 := congrFun h ValueIdx.ix0
  dsimp only [fn] at h0
  obtain ⟨h1, h2⟩ := IntOp.andi_eq_one.1 h0
  exact ⟨fun i => real_of_abs_lt_inf _ (Host.reduce_andi_all _ _ _ _ _ h1 i),
    fun i => real_of_abs_lt_inf _ (Host.reduce_andi_all _ _ _ _ _ h2 i)⟩

end Cert.Pre_finite_inputs.Finite

end
-- ==== Proof.lean ====
/-
  Unscaled cross-attention with the decoder passed through: a kernel against its jnp reference, equal over the extended
  reals on finite inputs.

  Inputs: encoder rows enc[b, e, :] and decoder rows dec[b, t, :], 8 batches of 2048 rows of 512 entries. The result has,
  for batch b and decoder row t, 1024 entries: dec[b, t, :] followed by the context

      context[b, t, d] = sum over e of softmax over e of (dec[b, t, :] . enc[b, e, :]) times enc[b, e, d].

  The reference computes the scores for a whole batch, subtracts the maximum over e, exponentiates, divides every weight
  by the sum of the weights and then contracts the normalised weights with the encoder rows. The kernel works on tiles of
  512 decoder rows of one batch against all 2048 encoder rows of that batch, and divides after the contraction: it
  contracts the unnormalised weights with the encoder rows and divides the 512 results of a row by that row's sum of
  weights. (Its narrowing of the encoder, the queries and the weights to a shorter float format is the identity over the
  extended reals.) Both are the same function of the inputs where the inputs are real numbers: every score is then real,
  the maximum of a row's 2048 scores is real, every weight exp (score - maximum) is a positive real, so is their sum, and
  division by it is multiplication by its reciprocal, which moves out of the finite sum over e. The precondition says
  exactly that every input entry is real.

  The modules: SoftmaxRow (one query row against the key rows as functions on the extended reals; the law on real rows;
  the whole result `arrayOut`), KernelBlock (what the kernel body leaves in its output block is the rows of that
  function), KernelArray (the blocks tile the result: the kernel's run ends at `arrayOut`), RefValue (the reference's
  stages are the row function's parts, and its result is `arrayOut` on real inputs), Finite (the precondition gives real
  inputs). The frames of the two kernel programs and the reference's run are the generated ones.
-/
import proofs.«407125_j54631984005169_3_alg».proof.Defs
import proofs.«407125_j54631984005169_3_alg».proof.Proof.Gen.Kernel
import proofs.«407125_j54631984005169_3_alg».proof.Proof.Gen.Kernel.Skeleton
import proofs.«407125_j54631984005169_3_alg».proof.Proof.Gen.Kernel.Launch
import proofs.«407125_j54631984005169_3_alg».proof.Proof.Gen.Kernel.Points
import proofs.«407125_j54631984005169_3_alg».proof.Proof.Gen.Kernel.Frame
import proofs.«407125_j54631984005169_3_alg».proof.Proof.Gen.KernelIdeal
import proofs.«407125_j54631984005169_3_alg».proof.Proof.Gen.KernelIdeal.Skeleton
import proofs.«407125_j54631984005169_3_alg».proof.Proof.Gen.KernelIdeal.Launch
import proofs.«407125_j54631984005169_3_alg».proof.Proof.Gen.KernelIdeal.Points
import proofs.«407125_j54631984005169_3_alg».proof.Proof.Gen.KernelIdeal.Frame
import proofs.«407125_j54631984005169_3_alg».proof.Proof.Gen.ReferenceIdeal
import proofs.«407125_j54631984005169_3_alg».proof.Proof.Gen.Pre_finite_inputs
import proofs.«407125_j54631984005169_3_alg».proof.Proof.Gen.KernelIdeal.Value
import proofs.«407125_j54631984005169_3_alg».proof.Proof.Gen.ReferenceIdeal.Run
import proofs.«407125_j54631984005169_3_alg».proof.Proof.Gen.ReferenceIdeal.Read
import proofs.«407125_j54631984005169_3_alg».proof.Proof.SoftmaxRow
import proofs.«407125_j54631984005169_3_alg».proof.Proof.KernelBlock
import proofs.«407125_j54631984005169_3_alg».proof.Proof.KernelArray
import proofs.«407125_j54631984005169_3_alg».proof.Proof.RefValue
import proofs.«407125_j54631984005169_3_alg».proof.Proof.Finite
import Idealize.ShloMosaic.Adequacy
import Idealize.ShloMosaic.Init

noncomputable section

namespace Cert.Proof

open Idealize.ShloMosaic Idealize.SL.Sem

/-- The word-level kernel runs and leaves its arguments unchanged. -/
theorem frame_kernel : Cert.frame_Kernel := fun m ρ _ => Cert.Kernel.Gen.frame m ρ

/-- So does the idealized kernel. -/
theorem frame_kernel_ideal : Cert.frame_KernelIdeal := fun m ρ _ => Cert.KernelIdeal.Gen.frame m ρ

/-- The reference has no kernel: its frame is its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- Over the extended reals, from memories agreeing on finite inputs, both programs end with the result array at
    `arrayOut` of the inputs: the kernel by its run, the reference by its run, its stages and the law on real rows. -/
theorem algebraic : Cert.algebraic_KernelIdeal_ReferenceIdeal := by
  intro m ρ m' ρ' hpre hagree
  refine ⟨_, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v13_eq, (hagree c).1, (hagree c).2]
  obtain ⟨f0, f1⟩ := Cert.Pre_finite_inputs.Finite.finite_of_pre _ _ (hpre c)
  exact Cert.ReferenceIdeal.RefValue.result_eq _ _ f0 f1

theorem claim : Cert.Claim := ⟨Cert.Kernel.Gen.facts, Cert.KernelIdeal.Gen.facts, Cert.ReferenceIdeal.Gen.facts, Cert.Pre_finite_inputs.Gen.facts,
  frame_kernel, frame_kernel_ideal, frame_reference, trivial, algebraic⟩

end Cert.Proof

end
